-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S16x64x1024 : Shape := ⟨3, ![16, 64, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S16x64x1024 : S_.BroadcastsInDim S16x64x1024 (![] : Fin 0 → Fin S16x64x1024.rank)
  reducesTo_S16x64x1024_S_d0_1_2 : S16x64x1024.ReducesTo [0, 1, 2] S_

variable [Facts]

def fn_part1 {F : FTy → Type} [FloatOps F] (main_arg4 : FVec F S16x64x1024 .f32) (main_arg5 : FVec F S16x64x1024 .f32) (main_v13 : IVec S_ 1) (main_v16 : IVec S16x64x1024 1) : IVec S_ 1 :=
  let main_c_5 : IVec S_ 1 := constantI S_ 1 1#1
  let main_v17 : IVec S_ 1 := (fun x v => Host.reduce IntOp.andi x v reducesTo_S16x64x1024_S_d0_1_2 h_S_) main_v16 main_c_5
  let main_v18 : IVec S_ 1 := andi main_v13 main_v17
  let main_v19 : FVec F S16x64x1024 .f32 := Host.absf main_arg4
  let main_cst_6 : FVec F S_ .f32 := constant S_ .f32 0x7F800000#32
  let main_v20 : FVec F S16x64x1024 .f32 := broadcastInDim S16x64x1024 ![] bcast_S_S16x64x1024 main_cst_6
  let main_v21 : IVec S16x64x1024 1 := cmpf .olt main_v19 main_v20
  let main_c_7 : IVec S_ 1 := constantI S_ 1 1#1
  let main_v22 : IVec S_ 1 := (fun x v => Host.reduce IntOp.andi x v reducesTo_S16x64x1024_S_d0_1_2 h_S_) main_v21 main_c_7
  let main_v23 : IVec S_ 1 := andi main_v18 main_v22
  let main_v24 : FVec F S16x64x1024 .f32 := Host.absf main_arg5
  let main_cst_8 : FVec F S_ .f32 := constant S_ .f32 0x7F800000#32
  let main_v25 : FVec F S16x64x1024 .f32 := broadcastInDim S16x64x1024 ![] bcast_S_S16x64x1024 main_cst_8
  let main_v26 : IVec S16x64x1024 1 := cmpf .olt main_v24 main_v25
  let main_c_9 : IVec S_ 1 := constantI S_ 1 1#1
  let main_v27 : IVec S_ 1 := (fun x v => Host.reduce IntOp.andi x v reducesTo_S16x64x1024_S_d0_1_2 h_S_) main_v26 main_c_9
  let main_v28 : IVec S_ 1 := andi main_v23 main_v27
  main_v28

def fn {F : FTy → Type} [FloatOps F] (main_arg0 : FVec F S4x2048x1024 .f32) (main_arg1 : FVec F S4x2048x1024 .f32) (main_arg2 : FVec F S4x2048x1024 .f32) (main_arg3 : FVec F S16x64x1024 .f32) (main_arg4 : FVec F S16x64x1024 .f32) (main_arg5 : FVec F S16x64x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S16x64x1024 .f32 := Host.absf main_arg3
  let main_cst_4 : FVec F S_ .f32 := constant S_ .f32 0x7F800000#32
  let main_v15 : FVec F S16x64x1024 .f32 := broadcastInDim S16x64x1024 ![] bcast_S_S16x64x1024 main_cst_4
  let main_v16 : IVec S16x64x1024 1 := cmpf .olt main_v14 main_v15
  fn_part1 (F := F) main_arg4 main_arg5 main_v13 main_v16
-- ==== Kernel.lean ====
abbrev S4x2048x1024 : Shape := ⟨3, ![4, 2048, 1024]⟩
abbrev S16x64x1024 : Shape := ⟨3, ![16, 64, 1024]⟩
abbrev S1024x16x64 : Shape := ⟨3, ![1024, 16, 64]⟩
abbrev S1024x1024 : Shape := ⟨2, ![1024, 1024]⟩
abbrev S4x16x2048x64 : Shape := ⟨4, ![4, 16, 2048, 64]⟩
abbrev S1x1024x1024 : Shape := ⟨3, ![1, 1024, 1024]⟩
abbrev S1x16x1024x64 : Shape := ⟨4, ![1, 16, 1024, 64]⟩
abbrev S1024x64 : Shape := ⟨2, ![1024, 64]⟩
abbrev S1x1x1024x64 : Shape := ⟨4, ![1, 1, 1024, 64]⟩

abbrev nBuf : Space → Nat
  | .hbm => 18
  | .vmem => 15
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S16x64x1024, .f32⟩
  | .hbm, ⟨4, _⟩ => ⟨S16x64x1024, .f32⟩
  | .hbm, ⟨5, _⟩ => ⟨S16x64x1024, .f32⟩
  | .hbm, ⟨6, _⟩ => ⟨S1024x16x64, .f32⟩
  | .hbm, ⟨7, _⟩ => ⟨S1024x1024, .f32⟩
  | .hbm, ⟨8, _⟩ => ⟨S1024x1024, .bf16⟩
  | .hbm, ⟨9, _⟩ => ⟨S1024x16x64, .f32⟩
  | .hbm, ⟨10, _⟩ => ⟨S1024x1024, .f32⟩
  | .hbm, ⟨11, _⟩ => ⟨S1024x1024, .bf16⟩
  | .hbm, ⟨12, _⟩ => ⟨S1024x16x64, .f32⟩
  | .hbm, ⟨13, _⟩ => ⟨S1024x1024, .f32⟩
  | .hbm, ⟨14, _⟩ => ⟨S1024x1024, .bf16⟩
  | .hbm, ⟨15, _⟩ => ⟨S4x16x2048x64, .f32⟩
  | .hbm, ⟨16, _⟩ => ⟨S4x16x2048x64, .f32⟩
  | .hbm, ⟨17, _⟩ => ⟨S4x16x2048x64, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .bf16⟩
  | .local _ .vmem, ⟨3, _⟩ => ⟨S1x16x1024x64, .f32⟩
  | .local _ .vmem, ⟨4, _⟩ => ⟨S1x16x1024x64, .f32⟩
  | .local _ .vmem, ⟨5, _⟩ => ⟨S1x1024x1024, .f32⟩
  | .local _ .vmem, ⟨6, _⟩ => ⟨S1x1024x1024, .f32⟩
  | .local _ .vmem, ⟨7, _⟩ => ⟨S1024x1024, .bf16⟩
  | .local _ .vmem, ⟨8, _⟩ => ⟨S1x16x1024x64, .f32⟩
  | .local _ .vmem, ⟨9, _⟩ => ⟨S1x16x1024x64, .f32⟩
  | .local _ .vmem, ⟨10, _⟩ => ⟨S1x1024x1024, .f32⟩
  | .local _ .vmem, ⟨11, _⟩ => ⟨S1x1024x1024, .f32⟩
  | .local _ .vmem, ⟨12, _⟩ => ⟨S1024x1024, .bf16⟩
  | .local _ .vmem, ⟨13, _⟩ => ⟨S1x16x1024x64, .f32⟩
  | .local _ .vmem, ⟨14, _⟩ => ⟨S1x16x1024x64, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x16x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x16x1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage2_0 : Fin 2 → Memref sig .tc .vmem S1x1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x16x1024x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  transposes_S16x64x1024_S1024x16x64_2_0_1 : S16x64x1024.Transposes [2, 0, 1] S1024x16x64
  shapeCasts_S1024x16x64_S1024x1024 : S1024x16x64.ShapeCasts S1024x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S1024x1024_o0_0_S1024x64 : S1024x1024.Slices ![0, 0] S1024x64
  inb_S1x16x1024x64_S1x1x1024x64_0_0_0_0 : ∀ a, (![0, 0, 0, 0] : Fin 4 → Nat) a + S1x1x1024x64.size a ≤ S1x16x1024x64.size a
  h_S1x1x1024x64 : 0 < S1x1x1024x64.numel
  shapeCasts_S1x1x1024x64_S1024x64 : S1x1x1024x64.ShapeCasts S1024x64
  shapeCasts_S1024x64_S1x1x1024x64 : S1024x64.ShapeCasts S1x1x1024x64
  slices_S1024x1024_o0_64_S1024x64 : S1024x1024.Slices ![0, 64] S1024x64
  inb_S1x16x1024x64_S1x1x1024x64_0_1_0_0 : ∀ a, (![0, 1, 0, 0] : Fin 4 → Nat) a + S1x1x1024x64.size a ≤ S1x16x1024x64.size a
  slices_S1024x1024_o0_128_S1024x64 : S1024x1024.Slices ![0, 128] S1024x64
  inb_S1x16x1024x64_S1x1x1024x64_0_2_0_0 : ∀ a, (![0, 2, 0, 0] : Fin 4 → Nat) a + S1x1x1024x64.size a ≤ S1x16x1024x64.size a
  slices_S1024x1024_o0_192_S1024x64 : S1024x1024.Slices ![0, 192] S1024x64
  inb_S1x16x1024x64_S1x1x1024x64_0_3_0_0 : ∀ a, (![0, 3, 0, 0] : Fin 4 → Nat) a + S1x1x1024x64.size a ≤ S1x16x1024x64.size a
  slices_S1024x1024_o0_256_S1024x64 : S1024x1024.Slices ![0, 256] S1024x64
  inb_S1x16x1024x64_S1x1x1024x64_0_4_0_0 : ∀ a, (![0, 4, 0, 0] : Fin 4 → Nat) a + S1x1x1024x64.size a ≤ S1x16x1024x64.size a
  slices_S1024x1024_o0_320_S1024x64 : S1024x1024.Slices ![0, 320] S1024x64
  inb_S1x16x1024x64_S1x1x1024x64_0_5_0_0 : ∀ a, (![0, 5, 0, 0] : Fin 4 → Nat) a + S1x1x1024x64.size a ≤ S1x16x1024x64.size a
  slices_S1024x1024_o0_384_S1024x64 : S1024x1024.Slices ![0, 384] S1024x64
  inb_S1x16x1024x64_S1x1x1024x64_0_6_0_0 : ∀ a, (![0, 6, 0, 0] : Fin 4 → Nat) a + S1x1x1024x64.size a ≤ S1x16x1024x64.size a
  slices_S1024x1024_o0_448_S1024x64 : S1024x1024.Slices ![0, 448] S1024x64
  inb_S1x16x1024x64_S1x1x1024x64_0_7_0_0 : ∀ a, (![0, 7, 0, 0] : Fin 4 → Nat) a + S1x1x1024x64.size a ≤ S1x16x1024x64.size a
  slices_S1024x1024_o0_512_S1024x64 : S1024x1024.Slices ![0, 512] S1024x64
  inb_S1x16x1024x64_S1x1x1024x64_0_8_0_0 : ∀ a, (![0, 8, 0, 0] : Fin 4 → Nat) a + S1x1x1024x64.size a ≤ S1x16x1024x64.size a
  slices_S1024x1024_o0_576_S1024x64 : S1024x1024.Slices ![0, 576] S1024x64
  inb_S1x16x1024x64_S1x1x1024x64_0_9_0_0 : ∀ a, (![0, 9, 0, 0] : Fin 4 → Nat) a + S1x1x1024x64.size a ≤ S1x16x1024x64.size a
  slices_S1024x1024_o0_640_S1024x64 : S1024x1024.Slices ![0, 640] S1024x64
  inb_S1x16x1024x64_S1x1x1024x64_0_10_0_0 : ∀ a, (![0, 10, 0, 0] : Fin 4 → Nat) a + S1x1x1024x64.size a ≤ S1x16x1024x64.size a
  slices_S1024x1024_o0_704_S1024x64 : S1024x1024.Slices ![0, 704] S1024x64
  inb_S1x16x1024x64_S1x1x1024x64_0_11_0_0 : ∀ a, (![0, 11, 0, 0] : Fin 4 → Nat) a + S1x1x1024x64.size a ≤ S1x16x1024x64.size a
  slices_S1024x1024_o0_768_S1024x64 : S1024x1024.Slices ![0, 768] S1024x64
  inb_S1x16x1024x64_S1x1x1024x64_0_12_0_0 : ∀ a, (![0, 12, 0, 0] : Fin 4 → Nat) a + S1x1x1024x64.size a ≤ S1x16x1024x64.size a
  slices_S1024x1024_o0_832_S1024x64 : S1024x1024.Slices ![0, 832] S1024x64
  inb_S1x16x1024x64_S1x1x1024x64_0_13_0_0 : ∀ a, (![0, 13, 0, 0] : Fin 4 → Nat) a + S1x1x1024x64.size a ≤ S1x16x1024x64.size a
  slices_S1024x1024_o0_896_S1024x64 : S1024x1024.Slices ![0, 896] S1024x64
  inb_S1x16x1024x64_S1x1x1024x64_0_14_0_0 : ∀ a, (![0, 14, 0, 0] : Fin 4 → Nat) a + S1x1x1024x64.size a ≤ S1x16x1024x64.size a
  slices_S1024x1024_o0_960_S1024x64 : S1024x1024.Slices ![0, 960] S1024x64
  inb_S1x16x1024x64_S1x1x1024x64_0_15_0_0 : ∀ a, (![0, 15, 0, 0] : Fin 4 → Nat) a + S1x1x1024x64.size a ≤ S1x16x1024x64.size a
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x2048x1024.size a
  hwx0_0 : ∀ i : grid0.Coords, EltTy.bits .f32 = 32 ∨ (Rect.block (s := S4x2048x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x1024x64.size a ≤ S4x16x2048x64.size a
  hwx0_2 : ∀ i : grid0.Coords, EltTy.bits .f32 = 32 ∨ (Rect.block (s := S4x16x2048x64) S1x16x1024x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x1024.size a
  hwx1_0 : ∀ i : grid1.Coords, EltTy.bits .f32 = 32 ∨ (Rect.block (s := S4x2048x1024) S1x1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x1024x64.size a ≤ S4x16x2048x64.size a
  hwx1_2 : ∀ i : grid1.Coords, EltTy.bits .f32 = 32 ∨ (Rect.block (s := S4x16x2048x64) S1x16x1024x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x1024.size a ≤ S4x2048x1024.size a
  hwx2_0 : ∀ i : grid2.Coords, EltTy.bits .f32 = 32 ∨ (Rect.block (s := S4x2048x1024) S1x1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x16x1024x64.size a ≤ S4x16x2048x64.size a
  hwx2_2 : ∀ i : grid2.Coords, EltTy.bits .f32 = 32 ∨ (Rect.block (s := S4x16x2048x64) S1x16x1024x64.size (cc2_transform_2 i) (hinb2_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x16x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x16x1024x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S1x1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x16x1024x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S16x64x1024 : Shape := ⟨3, ![16, 64, 1024]⟩
abbrev S16x64x4x2048 : Shape := ⟨4, ![16, 64, 4, 2048]⟩
abbrev S4x16x2048x64 : Shape := ⟨4, ![4, 16, 2048, 64]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S16x64x1024, .f32⟩
  | .hbm, ⟨4, _⟩ => ⟨S16x64x1024, .f32⟩
  | .hbm, ⟨5, _⟩ => ⟨S16x64x1024, .f32⟩
  | .hbm, ⟨6, _⟩ => ⟨S16x64x4x2048, .f32⟩
  | .hbm, ⟨7, _⟩ => ⟨S4x16x2048x64, .f32⟩
  | .hbm, ⟨8, _⟩ => ⟨S16x64x4x2048, .f32⟩
  | .hbm, ⟨9, _⟩ => ⟨S4x16x2048x64, .f32⟩
  | .hbm, ⟨10, _⟩ => ⟨S16x64x4x2048, .f32⟩
  | .hbm, ⟨11, _⟩ => ⟨S4x16x2048x64, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  transposes_S16x64x4x2048_S4x16x2048x64_2_0_3_1 : S16x64x4x2048.Transposes [2, 0, 3, 1] S4x16x2048x64
  dot_S16x64x1024_S4x2048x1024_S16x64x4x2048_2_2_01_01_n_n_wf : DotDims.WF S16x64x1024 S4x2048x1024 S16x64x4x2048 [2] [2] [0, 1] [0, 1] [] []

variable [Facts₀]

def dot_S16x64x1024_S4x2048x1024_S16x64x4x2048_2_2_01_01_n_n : DotDims S16x64x1024 S4x2048x1024 S16x64x4x2048 where
  lhsContracting := [2]
  rhsContracting := [2]
  lhsNonContracting := [0, 1]
  rhsNonContracting := [0, 1]
  lhsBatch := []
  rhsBatch := []
  wf := dot_S16x64x1024_S4x2048x1024_S16x64x4x2048_2_2_01_01_n_n_wf

class Facts : Prop extends Facts₀ where

variable [Facts]
-- ==== Proof.Body.lean ====
/-
  One grid step of the projection kernel, read at an index.

  A step loads a block `x` of 1024 rows of the activations (each row 1024 features) and the whole folded weight
  matrix `w` (1024 features by 1024 = 16 heads x 64 columns), forms the product `x · w` into a zero accumulator,
  and stores, for each head `h`, columns `64 h … 64 h + 63` of the product as the `h`-th slab of its output block.
  So the output block at (head `h`, row `s`, column `d`) is the sum over the feature `e` of
  `x[s, e] · w[e, 64 h + d]`: sixteen stores, one function of the block index.
-/
import proofs.«173677_j3564822855692_1_alg».proof.Proof.Gen.KernelIdeal.Frame
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- Row `s` of the activation block, feature `e`: the left factor's index for output index `y = (0, h, s, d)`. -/
abbrev xrow (y : S1x16x1024x64.Idx) (e : Fin 1024) : S1x1024x1024.Idx := fun a => match a with
  | ⟨0, _⟩ => ⟨0, Nat.one_pos⟩
  | ⟨1, _⟩ => ⟨(y 2).val, (y 2).isLt⟩
  | ⟨2, _⟩ => ⟨e.val, e.isLt⟩

/-- Feature `e`, column `64 h + d` of the folded weights: the right factor's index for `y = (0, h, s, d)`. -/
abbrev wcol (y : S1x16x1024x64.Idx) (e : Fin 1024) : S1024x1024.Idx := fun a => match a with
  | ⟨0, _⟩ => ⟨e.val, e.isLt⟩
  | ⟨1, _⟩ => ⟨64 * (y 1).val + (y 3).val, by
      have h1 : (y 1).val < 16 := (y 1).isLt
      have h3 : (y 3).val < 64 := (y 3).isLt
      show 64 * (y 1).val + (y 3).val < 1024
      omega⟩

/-- What a step leaves in its output block, as one function of the block index. -/
def blockProj (x : Vec Ideal S1x1024x1024 .f32) (w : Vec Ideal S1024x1024 .bf16) : Vec Ideal S1x16x1024x64 .f32 :=
  fun y => ∑ e : Fin 1024, x (xrow y e) * w (wcol y e)

/-! ## The product at an index -/

theorem lhs0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product of a row block and the folded weights into a zero accumulator, at (row `i 0`, column `i 1`): the
    sum over the feature of the two factors. -/
theorem prod_apply (a : FVec Ideal S1024x1024 .bf16) (b : FVec Ideal S1024x1024 .bf16) (i : S1024x1024.Idx) :
    matmul dot_S1024x1024_S1024x1024_S1024x1024_1_0_0_1_n_n none a b (constant S1024x1024 .f32 0x00000000#32) i
      = ∑ e : Fin 1024, a (ix2 ⟨(i 0).val, (i 0).isLt⟩ e) * b (ix2 e ⟨(i 1).val, (i 1).isLt⟩) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx i ((ValueIdx.contrEquiv1 dot_S1024x1024_S1024x1024_S1024x1024_1_0_0_1_n_n 1024 rfl rfl).symm k) = ix2 ⟨(i 0).val, (i 0).isLt⟩ k := funext fun a => Fin.ext (by
    match a with
    | ⟨0, _⟩ => exact lhs0 _ _
    | ⟨1, _⟩ => exact (lhs1 _ _).trans hk)
  have er : dot_S1024x1024_S1024x1024_S1024x1024_1_0_0_1_n_n.rhsIdx i ((ValueIdx.contrEquiv1 dot_S1024x1024_S1024x1024_S1024x1024_1_0_0_1_n_n 1024 rfl rfl).symm k) = ix2 k ⟨(i 1).val, (i 1).isLt⟩ := funext fun a => Fin.ext (by
    match a with
    | ⟨0, _⟩ => exact (rhs0 _ _).trans hk
    | ⟨1, _⟩ => exact rhs1 _ _)
  rw [el, er]
  rfl

/-! ## One head's slab of the product -/

/-- Columns `o … o + 63` of a 1024-wide matrix, laid out as a [1, 1, 1024, 64] slab, at slab index `x`: the matrix at
    (row `x 2`, column `o + x 3`). -/
theorem slab_apply (p : FVec Ideal S1024x1024 .f32) (o : Nat) (hs : S1024x1024.Slices ![0, o] S1024x64)
    (hc : S1024x64.ShapeCasts S1x1x1024x64) (x : S1x1x1024x64.Idx) (j : S1024x1024.Idx)
    (hj0 : (j 0).val = (x 2).val) (hj1 : (j 1).val = o + (x 3).val) :
    shapeCast S1x1x1024x64 (extractStridedSlice S1024x64 ![0, o] p hs) hc x = p j := by
  have h0 : (x 0).val < 1 := (x 0).isLt
  have h1 : (x 1).val < 1 := (x 1).isLt
  have h2 : (x 2).val < 1024 := (x 2).isLt
  have h3 : (x 3).val < 64 := (x 3).isLt
  refine (shapeCast_apply _ hc x (ix2 ⟨(x 2).val, h2⟩ ⟨(x 3).val, h3⟩) ?_).trans ?_
  · rw [Shape.rowMajor_val_four, Shape.rowMajor_val_two]
    show (x 2).val * 64 + (x 3).val = (((x 0).val * 1 + (x 1).val) * 1024 + (x 2).val) * 64 + (x 3).val
    omega
  · refine extractStridedSlice_apply ![0, o] p hs _ j fun a => ?_
    match a with
    | ⟨0, _⟩ => show (j 0).val = 0 + (x 2).val; omega
    | ⟨1, _⟩ => show (j 1).val = o + (x 3).val; omega

/-! ## The step's sixteen stores are one function -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The product the step forms from its two loads, at (row, column): the activation block's row times the folded
    weights' column (the change of format to bf16 is the identity on the extended reals; the block's leading unit
    axis is dropped by a reshape that keeps the row-major position). -/
theorem product_apply (x : Vec Ideal S1x1024x1024 .f32) (w : Vec Ideal S1024x1024 .bf16) (j : S1024x1024.Idx) :
    k0_pay6 (View.ld x r0_0) (View.ld w r0_1) j
      = ∑ e : Fin 1024, x (ix3 (⟨0, Nat.one_pos⟩ : Fin 1) (⟨(j 0).val, (j 0).isLt⟩ : Fin 1024) e) * w (ix2 e (⟨(j 1).val, (j 1).isLt⟩ : Fin 1024)) := by
  rw [View.ld_unit_zero (S := S1x1024x1024) zeros3, View.ld_unit_zero (S := S1024x1024) zeros2]
  show matmul (F := Ideal) (φ₁ := .bf16) (φ₂ := .bf16) dot_S1024x1024_S1024x1024_S1024x1024_1_0_0_1_n_n none
      (truncf .bf16 (shapeCast S1024x1024 (x : FVec Ideal S1x1024x1024 .f32) shapeCasts_S1x1024x1024_S1024x1024) bitsLt_bf16_f32)
      (shapeCast S1024x1024 (w : FVec Ideal S1024x1024 .bf16) shapeCasts_S1024x1024_S1024x1024) (constant S1024x1024 .f32 0x00000000#32) j = _
  rw [prod_apply, shapeCast_self]
  refine Finset.sum_congr rfl fun e _ => ?_
  refine congrArg (· * _) ?_
  show shapeCast S1024x1024 (x : FVec Ideal S1x1024x1024 .f32) shapeCasts_S1x1024x1024_S1024x1024 (ix2 ⟨(j 0).val, (j 0).isLt⟩ e) = _
  refine shapeCast_apply (x : FVec Ideal S1x1024x1024 .f32) _ _ _ ?_
  rw [Shape.rowMajor_val_three, Shape.rowMajor_val_two]
  show (0 * 1024 + (j 0).val) * 1024 + e.val = (j 0).val * 1024 + e.val
  omega

/-- One store of the step: head `hn`'s slab — columns `64·hn …` of the product — lands on rows `(0, hn, ·, ·)` of the
    output block, and there it is `blockProj`. -/
theorem piece_apply (x : Vec Ideal S1x1024x1024 .f32) (w : Vec Ideal S1024x1024 .bf16) (hn : Nat) (hlt : hn < 16)
    (o : Nat) (ho : o = 64 * hn) (hs : S1024x1024.Slices ![0, o] S1024x64) (hc : S1024x64.ShapeCasts S1x1x1024x64)
    (inb : ∀ a, (![0, hn, 0, 0] : Fin 4 → Nat) a + S1x1x1024x64.size a ≤ S1x16x1024x64.size a) (z : S1x1x1024x64.Idx) :
    shapeCast S1x1x1024x64 (extractStridedSlice S1024x64 ![0, o] (k0_pay6 (View.ld x r0_0) (View.ld w r0_1)) hs) hc z
      = blockProj x w ((Rect.unit (s := S1x16x1024x64) ![0, hn, 0, 0] S1x1x1024x64.size inb).emb z) := by
  have h0 : (z 0).val < 1 := (z 0).isLt
  have h1 : (z 1).val < 1 := (z 1).isLt
  have h2 : (z 2).val < 1024 := (z 2).isLt
  have h3 : (z 3).val < 64 := (z 3).isLt
  refine (slab_apply _ o hs hc z (ix2 (⟨(z 2).val, h2⟩ : Fin 1024) (⟨o + (z 3).val, by omega⟩ : Fin 1024)) rfl rfl).trans ?_
  rw [product_apply]
  unfold blockProj
  refine Finset.sum_congr rfl fun e _ => ?_
  have ex : (ix3 (⟨0, Nat.one_pos⟩ : Fin 1) (⟨(z 2).val, h2⟩ : Fin 1024) e : S1x1024x1024.Idx)
      = xrow ((Rect.unit (s := S1x16x1024x64) ![0, hn, 0, 0] S1x1x1024x64.size inb).emb z) e :=
    funext fun a => Fin.ext (by
      match a with
      | ⟨0, _⟩ => rfl
      | ⟨1, _⟩ => show (z 2).val = 0 + 1 * (z 2).val; omega
      | ⟨2, _⟩ => rfl)
  have ew : (ix2 e (⟨o + (z 3).val, by omega⟩ : Fin 1024) : S1024x1024.Idx)
      = wcol ((Rect.unit (s := S1x16x1024x64) ![0, hn, 0, 0] S1x1x1024x64.size inb).emb z) e :=
    funext fun a => Fin.ext (by
      match a with
      | ⟨0, _⟩ => rfl
      | ⟨1, _⟩ => show o + (z 3).val = 64 * (hn + 1 * (z 1).val) + (0 + 1 * (z 3).val); omega)
  exact congrArg₂ (fun p q => x p * w q) ex ew

/-- The step's output block is `blockProj` of its two loaded blocks: every index lies under one of the sixteen
    stores, and each store's payload is `blockProj` there. -/
theorem out0_2_eq (x : Vec Ideal S1x1024x1024 .f32) (w : Vec Ideal S1024x1024 .bf16) : out0_2 x w = blockProj x w := by
  funext y
  unfold out0_2
  refine View.canon_apply_of_pieces (blockProj x w) _ ?_ y (cover0_2 _ _ _ _ _ _ _ _ _ _ _ _ _ _ _ _ y)
  intro p hp z
  simp only [List.mem_cons, List.not_mem_nil, or_false] at hp
  rcases hp with rfl | rfl | rfl | rfl | rfl | rfl | rfl | rfl | rfl | rfl | rfl | rfl | rfl | rfl | rfl | rfl
  · exact piece_apply x w 15 (by decide) 960 rfl slices_S1024x1024_o0_960_S1024x64 shapeCasts_S1024x64_S1x1x1024x64 inb_S1x16x1024x64_S1x1x1024x64_0_15_0_0 z
  · exact piece_apply x w 14 (by decide) 896 rfl slices_S1024x1024_o0_896_S1024x64 shapeCasts_S1024x64_S1x1x1024x64 inb_S1x16x1024x64_S1x1x1024x64_0_14_0_0 z
  · exact piece_apply x w 13 (by decide) 832 rfl slices_S1024x1024_o0_832_S1024x64 shapeCasts_S1024x64_S1x1x1024x64 inb_S1x16x1024x64_S1x1x1024x64_0_13_0_0 z
  · exact piece_apply x w 12 (by decide) 768 rfl slices_S1024x1024_o0_768_S1024x64 shapeCasts_S1024x64_S1x1x1024x64 inb_S1x16x1024x64_S1x1x1024x64_0_12_0_0 z
  · exact piece_apply x w 11 (by decide) 704 rfl slices_S1024x1024_o0_704_S1024x64 shapeCasts_S1024x64_S1x1x1024x64 inb_S1x16x1024x64_S1x1x1024x64_0_11_0_0 z
  · exact piece_apply x w 10 (by decide) 640 rfl slices_S1024x1024_o0_640_S1024x64 shapeCasts_S1024x64_S1x1x1024x64 inb_S1x16x1024x64_S1x1x1024x64_0_10_0_0 z
  · exact piece_apply x w 9 (by decide) 576 rfl slices_S1024x1024_o0_576_S1024x64 shapeCasts_S1024x64_S1x1x1024x64 inb_S1x16x1024x64_S1x1x1024x64_0_9_0_0 z
  · exact piece_apply x w 8 (by decide) 512 rfl slices_S1024x1024_o0_512_S1024x64 shapeCasts_S1024x64_S1x1x1024x64 inb_S1x16x1024x64_S1x1x1024x64_0_8_0_0 z
  · exact piece_apply x w 7 (by decide) 448 rfl slices_S1024x1024_o0_448_S1024x64 shapeCasts_S1024x64_S1x1x1024x64 inb_S1x16x1024x64_S1x1x1024x64_0_7_0_0 z
  · exact piece_apply x w 6 (by decide) 384 rfl slices_S1024x1024_o0_384_S1024x64 shapeCasts_S1024x64_S1x1x1024x64 inb_S1x16x1024x64_S1x1x1024x64_0_6_0_0 z
  · exact piece_apply x w 5 (by decide) 320 rfl slices_S1024x1024_o0_320_S1024x64 shapeCasts_S1024x64_S1x1x1024x64 inb_S1x16x1024x64_S1x1x1024x64_0_5_0_0 z
  · exact piece_apply x w 4 (by decide) 256 rfl slices_S1024x1024_o0_256_S1024x64 shapeCasts_S1024x64_S1x1x1024x64 inb_S1x16x1024x64_S1x1x1024x64_0_4_0_0 z
  · exact piece_apply x w 3 (by decide) 192 rfl slices_S1024x1024_o0_192_S1024x64 shapeCasts_S1024x64_S1x1x1024x64 inb_S1x16x1024x64_S1x1x1024x64_0_3_0_0 z
  · exact piece_apply x w 2 (by decide) 128 rfl slices_S1024x1024_o0_128_S1024x64 shapeCasts_S1024x64_S1x1x1024x64 inb_S1x16x1024x64_S1x1x1024x64_0_2_0_0 z
  · exact piece_apply x w 1 (by decide) 64 rfl slices_S1024x1024_o0_64_S1024x64 shapeCasts_S1024x64_S1x1x1024x64 inb_S1x16x1024x64_S1x1x1024x64_0_1_0_0 z
  · exact piece_apply x w 0 (by decide) 0 rfl slices_S1024x1024_o0_0_S1024x64 shapeCasts_S1024x64_S1x1x1024x64 inb_S1x16x1024x64_S1x1x1024x64_0_0_0_0 z

/-- The other two launches run the same step. -/
theorem out1_2_eq (x : Vec Ideal S1x1024x1024 .f32) (w : Vec Ideal S1024x1024 .bf16) : out1_2 x w = blockProj x w :=
  (show out1_2 x w = out0_2 x w from rfl).trans (out0_2_eq x w)
theorem out2_2_eq (x : Vec Ideal S1x1024x1024 .f32) (w : Vec Ideal S1024x1024 .bf16) : out2_2 x w = blockProj x w :=
  (show out2_2 x w = out0_2 x w from rfl).trans (out0_2_eq x w)

end Cert.KernelIdeal.Body

end
-- ==== Proof.Spec.lean ====
/-
  The mathematics of the multi-head projection, with no program in sight.

  `headsProj x w` is the reference's einsum "bse,hde->bhsd": at (batch `b`, head `h`, position `s`, column `d`) the
  sum over the feature `e` of `x[b, s, e] · w[h, d, e]`.  `foldedProj x wt` is what the kernel computes: the same sum
  against the weights folded into a 1024 x 1024 matrix `wt[e, 64 h + d]`.  The kernel's host prologue builds `wt` from
  `w` by moving the feature axis to the front, flattening (head, column) row-major into one axis, and changing the
  float format (the identity on the extended reals); `folded_eq_heads` reads that matrix at an index and identifies
  the two sums term by term.  No algebra beyond that is needed: both sides are the same finite sum of the same
  products, so nothing here depends on the inputs being finite.
-/
import Idealize.ShloMosaic.PureOps.Ideal
import Idealize.ShloMosaic.Lib.ValueIdx
import Idealize.ShloMosaic.Lib.Pipeline.Value

noncomputable section

open scoped BigOperators

namespace Cert.Spec

open Idealize.ShloMosaic Idealize.ShloMosaic.ValueIdx

/-- Activations [batch 4, position 2048, feature 1024]. -/
abbrev SAct : Shape := ⟨3, ![4, 2048, 1024]⟩
/-- Per-head weights [head 16, column 64, feature 1024]. -/
abbrev SW : Shape := ⟨3, ![16, 64, 1024]⟩
/-- The weights with the feature axis first [feature 1024, head 16, column 64]. -/
abbrev SWt : Shape := ⟨3, ![1024, 16, 64]⟩
/-- The folded weights [feature 1024, head·64 + column 1024]. -/
abbrev SFold : Shape := ⟨2, ![1024, 1024]⟩
/-- The result [batch 4, head 16, position 2048, column 64]. -/
abbrev SOut : Shape := ⟨4, ![4, 16, 2048, 64]⟩

/-- The activation entry (batch, position, feature `e`) that result index `i` reads. -/
abbrev actIdx (i : SOut.Idx) (e : Fin 1024) : SAct.Idx := fun a => match a with
  | ⟨0, _⟩ => ⟨(i 0).val, (i 0).isLt⟩
  | ⟨1, _⟩ => ⟨(i 2).val, (i 2).isLt⟩
  | ⟨2, _⟩ => ⟨e.val, e.isLt⟩

/-- The per-head weight entry (head, column, feature `e`) that result index `i` reads. -/
abbrev wIdx (i : SOut.Idx) (e : Fin 1024) : SW.Idx := fun a => match a with
  | ⟨0, _⟩ => ⟨(i 1).val, (i 1).isLt⟩
  | ⟨1, _⟩ => ⟨(i 3).val, (i 3).isLt⟩
  | ⟨2, _⟩ => ⟨e.val, e.isLt⟩

/-- The folded weight entry (feature `e`, 64·head + column) that result index `i` reads. -/
abbrev foldIdx (i : SOut.Idx) (e : Fin 1024) : SFold.Idx := fun a => match a with
  | ⟨0, _⟩ => ⟨e.val, e.isLt⟩
  | ⟨1, _⟩ => ⟨64 * (i 1).val + (i 3).val, by
      have h1 : (i 1).val < 16 := (i 1).isLt
      have h3 : (i 3).val < 64 := (i 3).isLt
      show 64 * (i 1).val + (i 3).val < 1024
      omega⟩

/-- The reference's projection: `Σ_e x[b, s, e] · w[h, d, e]`. -/
def headsProj (x : FVec Ideal SAct .f32) (w : FVec Ideal SW .f32) : FVec Ideal SOut .f32 :=
  fun i => ∑ e : Fin 1024, x (actIdx i e) * w (wIdx i e)

/-- The kernel's projection against folded weights: `Σ_e x[b, s, e] · wt[e, 64 h + d]`. -/
def foldedProj (x : FVec Ideal SAct .f32) (wt : FVec Ideal SFold .bf16) : FVec Ideal SOut .f32 :=
  fun i => ∑ e : Fin 1024, x (actIdx i e) * wt (foldIdx i e)

/-- The folded weights at (feature `e`, column `64 h + d`) are the per-head weights at (`h`, `d`, `e`): the transpose
    puts source axis 2 first, and the reshape keeps the row-major position `e·1024 + h·64 + d`. -/
theorem fold_apply (w : FVec Ideal SW .f32) (htr : SW.Transposes [2, 0, 1] SWt) (hsc : SWt.ShapeCasts SFold)
    (hb : FTy.bf16.bits < FTy.f32.bits) (i : SOut.Idx) (e : Fin 1024) :
    (truncf .bf16 (shapeCast SFold (transpose SWt [2, 0, 1] w htr) hsc) hb : FVec Ideal SFold .bf16) (foldIdx i e) = w (wIdx i e) := by
  have h1 : (i 1).val < 16 := (i 1).isLt
  have h3 : (i 3).val < 64 := (i 3).isLt
  show shapeCast SFold (transpose SWt [2, 0, 1] w htr) hsc (foldIdx i e) = _
  refine (shapeCast_apply _ hsc (foldIdx i e) (ix3 e (⟨(i 1).val, h1⟩ : Fin 16) (⟨(i 3).val, h3⟩ : Fin 64)) ?_).trans ?_
  · rw [Shape.rowMajor_val_three, Shape.rowMajor_val_two]
    show (e.val * 16 + (i 1).val) * 64 + (i 3).val = e.val * 1024 + (64 * (i 1).val + (i 3).val)
    omega
  · exact transpose_apply [2, 0, 1] w htr _ (wIdx i e) (fun b => match b with
      | ⟨0, _⟩ => rfl
      | ⟨1, _⟩ => rfl
      | ⟨2, _⟩ => rfl)

/-- So the kernel's sum against the folded weights is the reference's sum against the per-head weights. -/
theorem folded_eq_heads (x : FVec Ideal SAct .f32) (w : FVec Ideal SW .f32) (htr : SW.Transposes [2, 0, 1] SWt)
    (hsc : SWt.ShapeCasts SFold) (hb : FTy.bf16.bits < FTy.f32.bits) :
    foldedProj x (truncf .bf16 (shapeCast SFold (transpose SWt [2, 0, 1] w htr) hsc) hb) = headsProj x w := by
  funext i
  unfold foldedProj headsProj
  exact Finset.sum_congr rfl fun e _ => congrArg (x (actIdx i e) * ·) (fold_apply w htr hsc hb i e)

end Cert.Spec

end
-- ==== Proof.Launch0.lean ====
/-
  Launch 0 of the projection kernel, from its grid steps to its whole output array.

  The grid is 4 batches by 2 row tiles.  At step (b, s) the launch stages rows `1024 s … 1024 s + 1023` of batch `b` of
  the activations, the whole folded weight matrix, and for the output the block (b, all 16 heads, the same 1024 rows,
  all 64 columns).  A step's output block is `Body.blockProj` of its two staged blocks; read through the windows, that
  is the block of `Spec.foldedProj` of the two whole arrays.  The eight blocks tile the output array, so after the
  launch the output array is `Spec.foldedProj` of the activations and the folded weights as the launch found them.
-/
import proofs.«173677_j3564822855692_1_alg».proof.Proof.Body
import proofs.«173677_j3564822855692_1_alg».proof.Proof.Spec

noncomputable section

open scoped BigOperators

namespace Cert.KernelIdeal.Launch0

open Cert.KernelIdeal Cert.KernelIdeal.Gen Cert.KernelIdeal.Body Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The activations as launch 0 finds them, at their literal type. -/
abbrev xarr (c : Dev nD) : FVec Ideal S4x2048x1024 .f32 := V c main_arg0
/-- The folded weights as launch 0 finds them, at their literal type. -/
abbrev warr (c : Dev nD) : FVec Ideal S1024x1024 .bf16 := V c main_v2

/-- The printed index maps over the grid: the activation window moves with the output window (batch with batch, row
    tile with row tile), the weight window stays put, and the output window's head and column block indices are 0. -/
theorem idx_facts : ∀ t : Fin cfg0.N, win0_0.index t (0 : Fin 3) = win0_2.index t (0 : Fin 4)
    ∧ win0_0.index t (1 : Fin 3) = win0_2.index t (2 : Fin 4)
    ∧ win0_0.index t (2 : Fin 3) = 0
    ∧ win0_1.index t (0 : Fin 2) = 0
    ∧ win0_1.index t (1 : Fin 2) = 0
    ∧ win0_2.index t (1 : Fin 4) = 0
    ∧ win0_2.index t (3 : Fin 4) = 0
    ∧ win0_2.index t (0 : Fin 4) ≤ 3
    ∧ win0_2.index t (2 : Fin 4) ≤ 1 :=
  (by decide +kernel : ∀ t : Fin grid0.N, _)

/-- Every (batch, row tile) is some step's output block. -/
theorem idx_onto : ∀ (q0 : Fin 4) (q2 : Fin 2), ∃ t : Fin cfg0.N, win0_2.index t = ![q0.val, 0, q2.val, 0] :=
  (by decide +kernel : ∀ (q0 : Fin 4) (q2 : Fin 2), ∃ t : Fin grid0.N, win0_2.index t = ![q0.val, 0, q2.val, 0])

/-- What step `t` writes back is block `t` of `foldedProj` of the two arrays the launch reads. -/
theorem flushed_eq (c : Dev nD) (t : Fin cfg0.N) :
    (dat0 V c).flushed 2 t = ((cfg0.win 2).blk t).view.read (Elt Ideal) (foldedProj (V c main_arg0) (V c main_v2)) := by
  show (cfg0.win 2).cut (grid0.coords t) ((dat0 V c).after 2 t) = _
  rw [after0_2]
  have hb := Body.out0_2_eq (iblk0 V c 0 t) (iblk0 V c 1 t)
  rw [hb]
  obtain ⟨e0, e1, e2, e3, e4, e5, e6, e7, e8⟩ := idx_facts t
  funext y
  show blockProj (iblk0 V c 0 t) (iblk0 V c 1 t) y = foldedProj (V c main_arg0) (V c main_v2) (((cfg0.win 2).blk t).view.emb y)
  unfold blockProj foldedProj
  refine Finset.sum_congr rfl fun e _ => ?_
  show xarr V c (((cfg0.win 0).blk t).view.emb (xrow y e)) * warr V c (((cfg0.win 1).blk t).view.emb (wcol y e))
    = xarr V c (actIdx (((cfg0.win 2).blk t).view.emb y) e) * warr V c (foldIdx (((cfg0.win 2).blk t).view.emb y) e)
  have h0 : (y 0).val < 1 := (y 0).isLt
  have h1 : (y 1).val < 16 := (y 1).isLt
  have h2 : (y 2).val < 1024 := (y 2).isLt
  have h3 : (y 3).val < 64 := (y 3).isLt
  have hx : ((cfg0.win 0).blk t).view.emb (xrow y e) = actIdx (((cfg0.win 2).blk t).view.emb y) e := by
    funext a; apply Fin.ext
    match a with
    | ⟨0, _⟩ => show win0_0.index t (0 : Fin 3) * 1 + 1 * 0 = win0_2.index t (0 : Fin 4) * 1 + 1 * (y 0).val; omega
    | ⟨1, _⟩ => show win0_0.index t (1 : Fin 3) * 1024 + 1 * (y 2).val = win0_2.index t (2 : Fin 4) * 1024 + 1 * (y 2).val; omega
    | ⟨2, _⟩ => show win0_0.index t (2 : Fin 3) * 1024 + 1 * e.val = e.val; omega
  have hw : ((cfg0.win 1).blk t).view.emb (wcol y e) = foldIdx (((cfg0.win 2).blk t).view.emb y) e := by
    funext a; apply Fin.ext
    match a with
    | ⟨0, _⟩ => show win0_1.index t (0 : Fin 2) * 1024 + 1 * e.val = e.val; omega
    | ⟨1, _⟩ => show win0_1.index t (1 : Fin 2) * 1024 + 1 * (64 * (y 1).val + (y 3).val)
        = 64 * (win0_2.index t (1 : Fin 4) * 16 + 1 * (y 1).val) + (win0_2.index t (3 : Fin 4) * 64 + 1 * (y 3).val); omega
  rw [hx, hw]

/-- An index of the output array is in step `t`'s block iff each coordinate is in the block's range on its axis. -/
theorem mem_blk (t : Fin cfg0.N) (i : S4x16x2048x64.Idx) :
    i ∈ ((cfg0.win 2).blk t).view.set ↔ ∀ a : Fin 4, win0_2.index t a * S1x16x1024x64.size a ≤ (i a).val ∧ (i a).val < win0_2.index t a * S1x16x1024x64.size a + S1x16x1024x64.size a := by
  show i ∈ ((View.whole main_v9).slice (win0_2.rect t)).set ↔ _
  rw [View.set_slice_whole, Rect.mem_set_unit]
  exact Iff.rfl

/-- The blocks cover the output array: index (b, h, s, d) lies in the block of step (b, s / 1024). -/
theorem cover (i : S4x16x2048x64.Idx) :
    ∃ t : Fin cfg0.N, (cfg0.win 2).flush t = true ∧ i ∈ ((cfg0.win 2).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 2).val / 1024, by omega⟩
  have q0 : win0_2.index t (0 : Fin 4) = (i 0).val := congrFun ht 0
  have q1 : win0_2.index t (1 : Fin 4) = 0 := congrFun ht 1
  have q2 : win0_2.index t (2 : Fin 4) = (i 2).val / 1024 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 16 ≤ (i 1).val ∧ (i 1).val < win0_2.index t (1 : Fin 4) * 16 + 16; omega
  | ⟨2, _⟩ => show win0_2.index t (2 : Fin 4) * 1024 ≤ (i 2).val ∧ (i 2).val < win0_2.index t (2 : Fin 4) * 1024 + 1024; omega
  | ⟨3, _⟩ => show win0_2.index t (3 : Fin 4) * 64 ≤ (i 3).val ∧ (i 3).val < win0_2.index t (3 : Fin 4) * 64 + 64; omega

/-- The output array after the launch: `foldedProj` of the activations and the folded weights the launch found. -/
theorem final (c : Dev nD) : (dat0 V c).arrAt 2 cfg0.N = foldedProj (V c main_arg0) (V c main_v2) :=
  (dat0 V c).arrAt_eq_of_cover 2 (foldedProj (V c main_arg0) (V c main_v2)) (fun t _ => flushed_eq V c t) cover

end Cert.KernelIdeal.Launch0

end
-- ==== Proof.Launch1.lean ====
/-
  Launch 1 of the projection kernel, from its grid steps to its whole output array.

  The grid is 4 batches by 2 row tiles.  At step (b, s) the launch stages rows `1024 s … 1024 s + 1023` of batch `b` of
  the activations, the whole folded weight matrix, and for the output the block (b, all 16 heads, the same 1024 rows,
  all 64 columns).  A step's output block is `Body.blockProj` of its two staged blocks; read through the windows, that
  is the block of `Spec.foldedProj` of the two whole arrays.  The eight blocks tile the output array, so after the
  launch the output array is `Spec.foldedProj` of the activations and the folded weights as the launch found them.
-/
import proofs.«173677_j3564822855692_1_alg».proof.Proof.Body
import proofs.«173677_j3564822855692_1_alg».proof.Proof.Spec

noncomputable section

open scoped BigOperators

namespace Cert.KernelIdeal.Launch1

open Cert.KernelIdeal Cert.KernelIdeal.Gen Cert.KernelIdeal.Body Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The activations as launch 1 finds them, at their literal type. -/
abbrev xarr (c : Dev nD) : FVec Ideal S4x2048x1024 .f32 := V c main_arg1
/-- The folded weights as launch 1 finds them, at their literal type. -/
abbrev warr (c : Dev nD) : FVec Ideal S1024x1024 .bf16 := V c main_v5

/-- The printed index maps over the grid: the activation window moves with the output window (batch with batch, row
    tile with row tile), the weight window stays put, and the output window's head and column block indices are 0. -/
theorem idx_facts : ∀ t : Fin cfg1.N, win1_0.index t (0 : Fin 3) = win1_2.index t (0 : Fin 4)
    ∧ win1_0.index t (1 : Fin 3) = win1_2.index t (2 : Fin 4)
    ∧ win1_0.index t (2 : Fin 3) = 0
    ∧ win1_1.index t (0 : Fin 2) = 0
    ∧ win1_1.index t (1 : Fin 2) = 0
    ∧ win1_2.index t (1 : Fin 4) = 0
    ∧ win1_2.index t (3 : Fin 4) = 0
    ∧ win1_2.index t (0 : Fin 4) ≤ 3
    ∧ win1_2.index t (2 : Fin 4) ≤ 1 :=
  (by decide +kernel : ∀ t : Fin grid1.N, _)

/-- Every (batch, row tile) is some step's output block. -/
theorem idx_onto : ∀ (q0 : Fin 4) (q2 : Fin 2), ∃ t : Fin cfg1.N, win1_2.index t = ![q0.val, 0, q2.val, 0] :=
  (by decide +kernel : ∀ (q0 : Fin 4) (q2 : Fin 2), ∃ t : Fin grid1.N, win1_2.index t = ![q0.val, 0, q2.val, 0])

/-- What step `t` writes back is block `t` of `foldedProj` of the two arrays the launch reads. -/
theorem flushed_eq (c : Dev nD) (t : Fin cfg1.N) :
    (dat1 V c).flushed 2 t = ((cfg1.win 2).blk t).view.read (Elt Ideal) (foldedProj (V c main_arg1) (V c main_v5)) := by
  show (cfg1.win 2).cut (grid1.coords t) ((dat1 V c).after 2 t) = _
  rw [after1_2]
  have hb := Body.out1_2_eq (iblk1 V c 0 t) (iblk1 V c 1 t)
  rw [hb]
  obtain ⟨e0, e1, e2, e3, e4, e5, e6, e7, e8⟩ := idx_facts t
  funext y
  show blockProj (iblk1 V c 0 t) (iblk1 V c 1 t) y = foldedProj (V c main_arg1) (V c main_v5) (((cfg1.win 2).blk t).view.emb y)
  unfold blockProj foldedProj
  refine Finset.sum_congr rfl fun e _ => ?_
  show xarr V c (((cfg1.win 0).blk t).view.emb (xrow y e)) * warr V c (((cfg1.win 1).blk t).view.emb (wcol y e))
    = xarr V c (actIdx (((cfg1.win 2).blk t).view.emb y) e) * warr V c (foldIdx (((cfg1.win 2).blk t).view.emb y) e)
  have h0 : (y 0).val < 1 := (y 0).isLt
  have h1 : (y 1).val < 16 := (y 1).isLt
  have h2 : (y 2).val < 1024 := (y 2).isLt
  have h3 : (y 3).val < 64 := (y 3).isLt
  have hx : ((cfg1.win 0).blk t).view.emb (xrow y e) = actIdx (((cfg1.win 2).blk t).view.emb y) e := by
    funext a; apply Fin.ext
    match a with
    | ⟨0, _⟩ => show win1_0.index t (0 : Fin 3) * 1 + 1 * 0 = win1_2.index t (0 : Fin 4) * 1 + 1 * (y 0).val; omega
    | ⟨1, _⟩ => show win1_0.index t (1 : Fin 3) * 1024 + 1 * (y 2).val = win1_2.index t (2 : Fin 4) * 1024 + 1 * (y 2).val; omega
    | ⟨2, _⟩ => show win1_0.index t (2 : Fin 3) * 1024 + 1 * e.val = e.val; omega
  have hw : ((cfg1.win 1).blk t).view.emb (wcol y e) = foldIdx (((cfg1.win 2).blk t).view.emb y) e := by
    funext a; apply Fin.ext
    match a with
    | ⟨0, _⟩ => show win1_1.index t (0 : Fin 2) * 1024 + 1 * e.val = e.val; omega
    | ⟨1, _⟩ => show win1_1.index t (1 : Fin 2) * 1024 + 1 * (64 * (y 1).val + (y 3).val)
        = 64 * (win1_2.index t (1 : Fin 4) * 16 + 1 * (y 1).val) + (win1_2.index t (3 : Fin 4) * 64 + 1 * (y 3).val); omega
  rw [hx, hw]

/-- An index of the output array is in step `t`'s block iff each coordinate is in the block's range on its axis. -/
theorem mem_blk (t : Fin cfg1.N) (i : S4x16x2048x64.Idx) :
    i ∈ ((cfg1.win 2).blk t).view.set ↔ ∀ a : Fin 4, win1_2.index t a * S1x16x1024x64.size a ≤ (i a).val ∧ (i a).val < win1_2.index t a * S1x16x1024x64.size a + S1x16x1024x64.size a := by
  show i ∈ ((View.whole main_v10).slice (win1_2.rect t)).set ↔ _
  rw [View.set_slice_whole, Rect.mem_set_unit]
  exact Iff.rfl

/-- The blocks cover the output array: index (b, h, s, d) lies in the block of step (b, s / 1024). -/
theorem cover (i : S4x16x2048x64.Idx) :
    ∃ t : Fin cfg1.N, (cfg1.win 2).flush t = true ∧ i ∈ ((cfg1.win 2).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 2).val / 1024, by omega⟩
  have q0 : win1_2.index t (0 : Fin 4) = (i 0).val := congrFun ht 0
  have q1 : win1_2.index t (1 : Fin 4) = 0 := congrFun ht 1
  have q2 : win1_2.index t (2 : Fin 4) = (i 2).val / 1024 := congrFun ht 2
  have q3 : win1_2.index t (3 : Fin 4) = 0 := congrFun ht 3
  refine ⟨t, flush1_2 t, ?_⟩
  rw [mem_blk]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 16 ≤ (i 1).val ∧ (i 1).val < win1_2.index t (1 : Fin 4) * 16 + 16; omega
  | ⟨2, _⟩ => show win1_2.index t (2 : Fin 4) * 1024 ≤ (i 2).val ∧ (i 2).val < win1_2.index t (2 : Fin 4) * 1024 + 1024; omega
  | ⟨3, _⟩ => show win1_2.index t (3 : Fin 4) * 64 ≤ (i 3).val ∧ (i 3).val < win1_2.index t (3 : Fin 4) * 64 + 64; omega

/-- The output array after the launch: `foldedProj` of the activations and the folded weights the launch found. -/
theorem final (c : Dev nD) : (dat1 V c).arrAt 2 cfg1.N = foldedProj (V c main_arg1) (V c main_v5) :=
  (dat1 V c).arrAt_eq_of_cover 2 (foldedProj (V c main_arg1) (V c main_v5)) (fun t _ => flushed_eq V c t) cover

end Cert.KernelIdeal.Launch1

end
-- ==== Proof.Launch2.lean ====
/-
  Launch 2 of the projection kernel, from its grid steps to its whole output array.

  The grid is 4 batches by 2 row tiles.  At step (b, s) the launch stages rows `1024 s … 1024 s + 1023` of batch `b` of
  the activations, the whole folded weight matrix, and for the output the block (b, all 16 heads, the same 1024 rows,
  all 64 columns).  A step's output block is `Body.blockProj` of its two staged blocks; read through the windows, that
  is the block of `Spec.foldedProj` of the two whole arrays.  The eight blocks tile the output array, so after the
  launch the output array is `Spec.foldedProj` of the activations and the folded weights as the launch found them.
-/
import proofs.«173677_j3564822855692_1_alg».proof.Proof.Body
import proofs.«173677_j3564822855692_1_alg».proof.Proof.Spec

noncomputable section

open scoped BigOperators

namespace Cert.KernelIdeal.Launch2

open Cert.KernelIdeal Cert.KernelIdeal.Gen Cert.KernelIdeal.Body Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The activations as launch 2 finds them, at their literal type. -/
abbrev xarr (c : Dev nD) : FVec Ideal S4x2048x1024 .f32 := V c main_arg2
/-- The folded weights as launch 2 finds them, at their literal type. -/
abbrev warr (c : Dev nD) : FVec Ideal S1024x1024 .bf16 := V c main_v8

/-- The printed index maps over the grid: the activation window moves with the output window (batch with batch, row
    tile with row tile), the weight window stays put, and the output window's head and column block indices are 0. -/
theorem idx_facts : ∀ t : Fin cfg2.N, win2_0.index t (0 : Fin 3) = win2_2.index t (0 : Fin 4)
    ∧ win2_0.index t (1 : Fin 3) = win2_2.index t (2 : Fin 4)
    ∧ win2_0.index t (2 : Fin 3) = 0
    ∧ win2_1.index t (0 : Fin 2) = 0
    ∧ win2_1.index t (1 : Fin 2) = 0
    ∧ win2_2.index t (1 : Fin 4) = 0
    ∧ win2_2.index t (3 : Fin 4) = 0
    ∧ win2_2.index t (0 : Fin 4) ≤ 3
    ∧ win2_2.index t (2 : Fin 4) ≤ 1 :=
  (by decide +kernel : ∀ t : Fin grid2.N, _)

/-- Every (batch, row tile) is some step's output block. -/
theorem idx_onto : ∀ (q0 : Fin 4) (q2 : Fin 2), ∃ t : Fin cfg2.N, win2_2.index t = ![q0.val, 0, q2.val, 0] :=
  (by decide +kernel : ∀ (q0 : Fin 4) (q2 : Fin 2), ∃ t : Fin grid2.N, win2_2.index t = ![q0.val, 0, q2.val, 0])

/-- What step `t` writes back is block `t` of `foldedProj` of the two arrays the launch reads. -/
theorem flushed_eq (c : Dev nD) (t : Fin cfg2.N) :
    (dat2 V c).flushed 2 t = ((cfg2.win 2).blk t).view.read (Elt Ideal) (foldedProj (V c main_arg2) (V c main_v8)) := by
  show (cfg2.win 2).cut (grid2.coords t) ((dat2 V c).after 2 t) = _
  rw [after2_2]
  have hb := Body.out2_2_eq (iblk2 V c 0 t) (iblk2 V c 1 t)
  rw [hb]
  obtain ⟨e0, e1, e2, e3, e4, e5, e6, e7, e8⟩ := idx_facts t
  funext y
  show blockProj (iblk2 V c 0 t) (iblk2 V c 1 t) y = foldedProj (V c main_arg2) (V c main_v8) (((cfg2.win 2).blk t).view.emb y)
  unfold blockProj foldedProj
  refine Finset.sum_congr rfl fun e _ => ?_
  show xarr V c (((cfg2.win 0).blk t).view.emb (xrow y e)) * warr V c (((cfg2.win 1).blk t).view.emb (wcol y e))
    = xarr V c (actIdx (((cfg2.win 2).blk t).view.emb y) e) * warr V c (foldIdx (((cfg2.win 2).blk t).view.emb y) e)
  have h0 : (y 0).val < 1 := (y 0).isLt
  have h1 : (y 1).val < 16 := (y 1).isLt
  have h2 : (y 2).val < 1024 := (y 2).isLt
  have h3 : (y 3).val < 64 := (y 3).isLt
  have hx : ((cfg2.win 0).blk t).view.emb (xrow y e) = actIdx (((cfg2.win 2).blk t).view.emb y) e := by
    funext a; apply Fin.ext
    match a with
    | ⟨0, _⟩ => show win2_0.index t (0 : Fin 3) * 1 + 1 * 0 = win2_2.index t (0 : Fin 4) * 1 + 1 * (y 0).val; omega
    | ⟨1, _⟩ => show win2_0.index t (1 : Fin 3) * 1024 + 1 * (y 2).val = win2_2.index t (2 : Fin 4) * 1024 + 1 * (y 2).val; omega
    | ⟨2, _⟩ => show win2_0.index t (2 : Fin 3) * 1024 + 1 * e.val = e.val; omega
  have hw : ((cfg2.win 1).blk t).view.emb (wcol y e) = foldIdx (((cfg2.win 2).blk t).view.emb y) e := by
    funext a; apply Fin.ext
    match a with
    | ⟨0, _⟩ => show win2_1.index t (0 : Fin 2) * 1024 + 1 * e.val = e.val; omega
    | ⟨1, _⟩ => show win2_1.index t (1 : Fin 2) * 1024 + 1 * (64 * (y 1).val + (y 3).val)
        = 64 * (win2_2.index t (1 : Fin 4) * 16 + 1 * (y 1).val) + (win2_2.index t (3 : Fin 4) * 64 + 1 * (y 3).val); omega
  rw [hx, hw]

/-- An index of the output array is in step `t`'s block iff each coordinate is in the block's range on its axis. -/
theorem mem_blk (t : Fin cfg2.N) (i : S4x16x2048x64.Idx) :
    i ∈ ((cfg2.win 2).blk t).view.set ↔ ∀ a : Fin 4, win2_2.index t a * S1x16x1024x64.size a ≤ (i a).val ∧ (i a).val < win2_2.index t a * S1x16x1024x64.size a + S1x16x1024x64.size a := by
  show i ∈ ((View.whole main_v11).slice (win2_2.rect t)).set ↔ _
  rw [View.set_slice_whole, Rect.mem_set_unit]
  exact Iff.rfl

/-- The blocks cover the output array: index (b, h, s, d) lies in the block of step (b, s / 1024). -/
theorem cover (i : S4x16x2048x64.Idx) :
    ∃ t : Fin cfg2.N, (cfg2.win 2).flush t = true ∧ i ∈ ((cfg2.win 2).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 2).val / 1024, by omega⟩
  have q0 : win2_2.index t (0 : Fin 4) = (i 0).val := congrFun ht 0
  have q1 : win2_2.index t (1 : Fin 4) = 0 := congrFun ht 1
  have q2 : win2_2.index t (2 : Fin 4) = (i 2).val / 1024 := congrFun ht 2
  have q3 : win2_2.index t (3 : Fin 4) = 0 := congrFun ht 3
  refine ⟨t, flush2_2 t, ?_⟩
  rw [mem_blk]
  intro a
  match a with
  | ⟨0, _⟩ => show win2_2.index t (0 : Fin 4) * 1 ≤ (i 0).val ∧ (i 0).val < win2_2.index t (0 : Fin 4) * 1 + 1; omega
  | ⟨1, _⟩ => show win2_2.index t (1 : Fin 4) * 16 ≤ (i 1).val ∧ (i 1).val < win2_2.index t (1 : Fin 4) * 16 + 16; omega
  | ⟨2, _⟩ => show win2_2.index t (2 : Fin 4) * 1024 ≤ (i 2).val ∧ (i 2).val < win2_2.index t (2 : Fin 4) * 1024 + 1024; omega
  | ⟨3, _⟩ => show win2_2.index t (3 : Fin 4) * 64 ≤ (i 3).val ∧ (i 3).val < win2_2.index t (3 : Fin 4) * 64 + 64; omega

/-- The output array after the launch: `foldedProj` of the activations and the folded weights the launch found. -/
theorem final (c : Dev nD) : (dat2 V c).arrAt 2 cfg2.N = foldedProj (V c main_arg2) (V c main_v8) :=
  (dat2 V c).arrAt_eq_of_cover 2 (foldedProj (V c main_arg2) (V c main_v8)) (fun t _ => flushed_eq V c t) cover

end Cert.KernelIdeal.Launch2

end
-- ==== Proof.Boundaries.lean ====
/-
  The contents of the buffers at the boundaries between the program's segments, read back to the launch memory.

  The program is a host prologue — for each of the three weight tensors: transpose the feature axis to the front,
  flatten (head, column), change the float format — followed by three kernel launches.  No host operation and no launch
  writes an argument, launch `k` writes only result `k`, and the prologue's folded weights are written once.  So each
  launch finds its activations as they were at the start and its folded weights as the prologue left them, and each
  result array ends at what its own launch left in it.
-/
import proofs.«173677_j3564822855692_1_alg».proof.Proof.Gen.KernelIdeal.Frame
import Idealize.ShloMosaic.Lib.StableHlo.Run

noncomputable section

namespace Cert.KernelIdeal.Boundaries

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## After the prologue -/

theorem W1_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.Forall, StableHlo.unary_writes, StableHlo.reshape_writes, Finset.mem_singleton]
      repeat' apply And.intro
      all_goals exact StableHlo.devRef_ne_of_ne (by decide)))).trans rfl
theorem W1_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
      simp only [hostOps0, List.Forall, StableHlo.unary_writes, StableHlo.reshape_writes, Finset.mem_singleton]
      repeat' apply And.intro
      all_goals exact StableHlo.devRef_ne_of_ne (by decide)))).trans rfl
theorem W1_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
      simp only [hostOps0, List.Forall, StableHlo.unary_writes, StableHlo.reshape_writes, Finset.mem_singleton]
      repeat' apply And.intro
      all_goals exact StableHlo.devRef_ne_of_ne (by decide)))).trans rfl

/-- The folded weights of the first tensor, as the prologue leaves them. -/
theorem W1_v2 (c : Dev nD) : (W1 m ρ c (Proc.devRef .tc main_v2) : FVec F S1024x1024 .bf16)
    = truncf .bf16 (shapeCast S1024x1024 (transpose S1024x16x64 [2, 0, 1] (m ((c : Thread nD τ).loc main_arg3)) transposes_S16x64x1024_S1024x16x64_2_0_1) shapeCasts_S1024x16x64_S1024x1024) bitsLt_bf16_f32 := by
  show StableHlo.after hostOps0 (W0 m ρ c) (Proc.devRef .tc main_v2) = _
  after_results
  rfl
theorem W1_v5 (c : Dev nD) : (W1 m ρ c (Proc.devRef .tc main_v5) : FVec F S1024x1024 .bf16)
    = truncf .bf16 (shapeCast S1024x1024 (transpose S1024x16x64 [2, 0, 1] (m ((c : Thread nD τ).loc main_arg4)) transposes_S16x64x1024_S1024x16x64_2_0_1) shapeCasts_S1024x16x64_S1024x1024) bitsLt_bf16_f32 := by
  show StableHlo.after hostOps0 (W0 m ρ c) (Proc.devRef .tc main_v5) = _
  after_results
  rfl
theorem W1_v8 (c : Dev nD) : (W1 m ρ c (Proc.devRef .tc main_v8) : FVec F S1024x1024 .bf16)
    = truncf .bf16 (shapeCast S1024x1024 (transpose S1024x16x64 [2, 0, 1] (m ((c : Thread nD τ).loc main_arg5)) transposes_S16x64x1024_S1024x16x64_2_0_1) shapeCasts_S1024x16x64_S1024x1024) bitsLt_bf16_f32 := by
  show StableHlo.after hostOps0 (W0 m ρ c) (Proc.devRef .tc main_v8) = _
  after_results
  rfl

/-! ## What each launch finds -/

theorem V1_arg0 (c : Dev nD) : V1 m ρ c main_arg0 = m ((c : Thread nD τ).loc main_arg0) := W1_arg0 m ρ c
theorem V1_v2 (c : Dev nD) : (V1 m ρ c main_v2 : FVec F S1024x1024 .bf16) = truncf .bf16 (shapeCast S1024x1024 (transpose S1024x16x64 [2, 0, 1] (m ((c : Thread nD τ).loc main_arg3)) transposes_S16x64x1024_S1024x16x64_2_0_1) shapeCasts_S1024x16x64_S1024x1024) bitsLt_bf16_f32 := W1_v2 m ρ c

theorem V2_arg1 (c : Dev nD) : V2 m ρ c main_arg1 = m ((c : Thread nD τ).loc main_arg1) :=
  (W2_of_ne m ρ c main_arg1 (by decide)).trans (W1_arg1 m ρ c)
theorem V2_v5 (c : Dev nD) : (V2 m ρ c main_v5 : FVec F S1024x1024 .bf16) = truncf .bf16 (shapeCast S1024x1024 (transpose S1024x16x64 [2, 0, 1] (m ((c : Thread nD τ).loc main_arg4)) transposes_S16x64x1024_S1024x16x64_2_0_1) shapeCasts_S1024x16x64_S1024x1024) bitsLt_bf16_f32 :=
  (W2_of_ne m ρ c main_v5 (by decide)).trans (W1_v5 m ρ c)

theorem V3_arg2 (c : Dev nD) : V3 m ρ c main_arg2 = m ((c : Thread nD τ).loc main_arg2) :=
  ((W3_of_ne m ρ c main_arg2 (by decide)).trans (W2_of_ne m ρ c main_arg2 (by decide))).trans (W1_arg2 m ρ c)
theorem V3_v8 (c : Dev nD) : (V3 m ρ c main_v8 : FVec F S1024x1024 .bf16) = truncf .bf16 (shapeCast S1024x1024 (transpose S1024x16x64 [2, 0, 1] (m ((c : Thread nD τ).loc main_arg5)) transposes_S16x64x1024_S1024x16x64_2_0_1) shapeCasts_S1024x16x64_S1024x1024) bitsLt_bf16_f32 :=
  ((W3_of_ne m ρ c main_v8 (by decide)).trans (W2_of_ne m ρ c main_v8 (by decide))).trans (W1_v8 m ρ c)

/-! ## Where each result ends -/

theorem W4_v9 (c : Dev nD) : W4 m ρ c (Proc.devRef .tc main_v9) = (dat0 (V1 m ρ) c).arrAt 2 cfg0.N :=
  ((W4_of_ne m ρ c main_v9 (by decide)).trans (W3_of_ne m ρ c main_v9 (by decide))).trans (W2_arr m ρ c 2)
theorem W4_v10 (c : Dev nD) : W4 m ρ c (Proc.devRef .tc main_v10) = (dat1 (V2 m ρ) c).arrAt 2 cfg1.N :=
  (W4_of_ne m ρ c main_v10 (by decide)).trans (W3_arr m ρ c 2)
theorem W4_v11 (c : Dev nD) : W4 m ρ c (Proc.devRef .tc main_v11) = (dat2 (V3 m ρ) c).arrAt 2 cfg2.N :=
  W4_arr m ρ c 2

end Cert.KernelIdeal.Boundaries

end
-- ==== Proof.KernelResult.lean ====
/-
  The idealized kernel's three results as functions of its arguments.

  Result `k` ends at what launch `k` leaves in it: `foldedProj` of the activations and folded weights launch `k` found.
  Those are the `k`-th activation argument untouched and the prologue's folding of the `k`-th weight argument, and
  `foldedProj` against folded weights is `headsProj` against the per-head weights (`Spec.folded_eq_heads`).
-/
import proofs.«173677_j3564822855692_1_alg».proof.Proof.KernelRun
import proofs.«173677_j3564822855692_1_alg».proof.Proof.Launch0
import proofs.«173677_j3564822855692_1_alg».proof.Proof.Launch1
import proofs.«173677_j3564822855692_1_alg».proof.Proof.Launch2
import proofs.«173677_j3564822855692_1_alg».proof.Proof.Boundaries
import proofs.«173677_j3564822855692_1_alg».proof.Proof.Spec

noncomputable section

namespace Cert.KernelIdeal.Result

open Cert.KernelIdeal Cert.KernelIdeal.Gen Cert.Spec
open Idealize.ShloMosaic Idealize.ShloMosaic.TcCoe Idealize.SL.Sem

variable (m : (ℓ : Loc nD τ sig) → Buf (Elt Ideal) ℓ) (ρ : Dev nD → PrngReg)

theorem res0 (c : Dev nD) : W4 m ρ c (Proc.devRef .tc main_v9) = headsProj (m ((c : Thread nD τ).loc main_arg0)) (m ((c : Thread nD τ).loc main_arg3)) :=
  ((Boundaries.W4_v9 m ρ c).trans (Launch0.final (V1 m ρ) c)).trans
    ((congrArg₂ foldedProj (Boundaries.V1_arg0 m ρ c) (Boundaries.V1_v2 m ρ c)).trans
      (folded_eq_heads _ _ transposes_S16x64x1024_S1024x16x64_2_0_1 shapeCasts_S1024x16x64_S1024x1024 bitsLt_bf16_f32))

theorem res1 (c : Dev nD) : W4 m ρ c (Proc.devRef .tc main_v10) = headsProj (m ((c : Thread nD τ).loc main_arg1)) (m ((c : Thread nD τ).loc main_arg4)) :=
  ((Boundaries.W4_v10 m ρ c).trans (Launch1.final (V2 m ρ) c)).trans
    ((congrArg₂ foldedProj (Boundaries.V2_arg1 m ρ c) (Boundaries.V2_v5 m ρ c)).trans
      (folded_eq_heads _ _ transposes_S16x64x1024_S1024x16x64_2_0_1 shapeCasts_S1024x16x64_S1024x1024 bitsLt_bf16_f32))

theorem res2 (c : Dev nD) : W4 m ρ c (Proc.devRef .tc main_v11) = headsProj (m ((c : Thread nD τ).loc main_arg2)) (m ((c : Thread nD τ).loc main_arg5)) :=
  ((Boundaries.W4_v11 m ρ c).trans (Launch2.final (V3 m ρ) c)).trans
    ((congrArg₂ foldedProj (Boundaries.V3_arg2 m ρ c) (Boundaries.V3_v8 m ρ c)).trans
      (folded_eq_heads _ _ transposes_S16x64x1024_S1024x16x64_2_0_1 shapeCasts_S1024x16x64_S1024x1024 bitsLt_bf16_f32))

/-- Every weakly fair execution of the idealized kernel ends with result `k` at `headsProj` of the `k`-th activations
    and the `k`-th weights, the arguments unchanged. -/
theorem run : θ_run defs (onTc (τ := τ) (main (F := Ideal))) ⟨m, fun _ => 0, ρ⟩ (fun r => ∀ c : Dev nD,
      r.2.mem ((c.tc : Thread nD τ).loc main_v9) = headsProj (m ((c : Thread nD τ).loc main_arg0)) (m ((c : Thread nD τ).loc main_arg3))
      ∧ r.2.mem ((c.tc : Thread nD τ).loc main_v10) = headsProj (m ((c : Thread nD τ).loc main_arg1)) (m ((c : Thread nD τ).loc main_arg4))
      ∧ r.2.mem ((c.tc : Thread nD τ).loc main_v11) = headsProj (m ((c : Thread nD τ).loc main_arg2)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (res0 m ρ c), (h c).2.1.trans (res1 m ρ c),
      (h c).2.2.1.trans (res2 m ρ c), (h c).2.2.2⟩)
    (Run.run_named m ρ)

end Cert.KernelIdeal.Result

end
-- ==== Proof.RefValue.lean ====
/-
  The reference, read at an index.

  Each of the reference's three results is a `dot_general` of a weight tensor [head, column, feature] with an
  activation tensor [batch, position, feature], contracting the feature axes, into [head, column, batch, position],
  followed by a transpose to [batch, head, position, column].  At the result index (b, h, s, d) that is the sum over the
  feature `e` of `w[h, d, e] · x[b, s, e]`: `Spec.headsProj` with the two factors of each product in the other order.
-/
import proofs.«173677_j3564822855692_1_alg».proof.Proof.Gen.ReferenceIdeal.Run
import proofs.«173677_j3564822855692_1_alg».proof.Proof.Gen.ReferenceIdeal.Read
import proofs.«173677_j3564822855692_1_alg».proof.Proof.Spec

noncomputable section

open scoped BigOperators

namespace Cert.ReferenceIdeal.RefValue

open Cert.ReferenceIdeal Cert.ReferenceIdeal.Read Cert.Spec Idealize.ShloMosaic

/-- The first result is `headsProj` of its activations and weights. -/
theorem proj_eq (x : (⟨S4x2048x1024, .f32⟩ : BufTy).Contents (Elt Ideal)) (w : (⟨S16x64x1024, .f32⟩ : BufTy).Contents (Elt Ideal)) :
    val_main_v1 (F := Ideal) x w = headsProj x w := by
  funext i
  rw [val_main_v1_apply, val_main_v0_apply]
  unfold headsProj
  refine Finset.sum_congr rfl fun e _ => ?_
  have el : lidx_main_v0 (idx_main_v1 i) e = wIdx i e := funext fun a => Fin.ext (by
    match a with
    | ⟨0, _⟩ => rfl
    | ⟨1, _⟩ => rfl
    | ⟨2, _⟩ => rfl)
  have er : ridx_main_v0 (idx_main_v1 i) e = actIdx i e := funext fun a => Fin.ext (by
    match a with
    | ⟨0, _⟩ => rfl
    | ⟨1, _⟩ => rfl
    | ⟨2, _⟩ => rfl)
  rw [el, er]
  exact mul_comm _ _

/-- The second and third results are the same operations on their own operands. -/
theorem proj_eq3 (x : (⟨S4x2048x1024, .f32⟩ : BufTy).Contents (Elt Ideal)) (w : (⟨S16x64x1024, .f32⟩ : BufTy).Contents (Elt Ideal)) :
    val_main_v3 (F := Ideal) x w = headsProj x w :=
  (show val_main_v3 (F := Ideal) x w = val_main_v1 (F := Ideal) x w from rfl).trans (proj_eq x w)
theorem proj_eq5 (x : (⟨S4x2048x1024, .f32⟩ : BufTy).Contents (Elt Ideal)) (w : (⟨S16x64x1024, .f32⟩ : BufTy).Contents (Elt Ideal)) :
    val_main_v5 (F := Ideal) x w = headsProj x w :=
  (show val_main_v5 (F := Ideal) x w = val_main_v1 (F := Ideal) x w from rfl).trans (proj_eq x w)

end Cert.ReferenceIdeal.RefValue

end
-- ==== Proof.lean ====
/-
  The certificate of the multi-head projection kernel against its einsum reference.

  The kernel projects three activation tensors `x` [batch, position, feature] by three per-head weight tensors `w`
  [head, column, feature] to [batch, head, position, column].  It folds each weight tensor into a 1024 x 1024 matrix
  `wt[e, 64 h + d] = w[h, d, e]` on the host, runs one launch per tensor whose grid step multiplies a block of 1024 rows
  of `x` by `wt` and stores the product's sixteen 64-column slabs as the sixteen heads of its output block, and returns
  the three output arrays.  The reference is `einsum("bse,hde->bhsd")` three times.  On the extended reals both are
  `Σ_e x[b, s, e] · w[h, d, e]` (`Spec.headsProj`): the kernel's side is read off its run launch by launch
  (`KernelResult`), the reference's off its run operation by operation (`RefValue`), and the only law used between
  them is commutativity of the product, so the precondition is never opened.  The three frames are the generated ones
  (the reference's is its run with the results dropped), and the idealization rewrote nothing.
-/
import proofs.«173677_j3564822855692_1_alg».proof.Defs
import proofs.«173677_j3564822855692_1_alg».proof.Proof.Gen.Kernel
import proofs.«173677_j3564822855692_1_alg».proof.Proof.Gen.Kernel.Frame
import proofs.«173677_j3564822855692_1_alg».proof.Proof.Gen.KernelIdeal
import proofs.«173677_j3564822855692_1_alg».proof.Proof.Gen.KernelIdeal.Frame
import proofs.«173677_j3564822855692_1_alg».proof.Proof.Gen.ReferenceIdeal
import proofs.«173677_j3564822855692_1_alg».proof.Proof.Gen.ReferenceIdeal.Run
import proofs.«173677_j3564822855692_1_alg».proof.Proof.Gen.ReferenceIdeal.Read
import proofs.«173677_j3564822855692_1_alg».proof.Proof.Gen.Pre_finite_inputs
import proofs.«173677_j3564822855692_1_alg».proof.Proof.KernelResult
import proofs.«173677_j3564822855692_1_alg».proof.Proof.RefValue

noncomputable section

namespace Cert.Proof

open Idealize.ShloMosaic Idealize.ShloMosaic.TcCoe Idealize.SL.Sem Cert.Spec

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.Value.run (F := Ideal) m ρ)

/-- Both idealized programs end with result `k` at `headsProj` of the `k`-th activations and weights of the kernel's
    memory: the kernel by its run, the reference by its run at arguments that agree with the kernel's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => headsProj (m ((c.tc : Thread Cert.KernelIdeal.nD Cert.KernelIdeal.τ).loc Cert.KernelIdeal.main_arg0)) (m ((c.tc : Thread Cert.KernelIdeal.nD Cert.KernelIdeal.τ).loc Cert.KernelIdeal.main_arg3)),
    fun c => headsProj (m ((c.tc : Thread Cert.KernelIdeal.nD Cert.KernelIdeal.τ).loc Cert.KernelIdeal.main_arg1)) (m ((c.tc : Thread Cert.KernelIdeal.nD Cert.KernelIdeal.τ).loc Cert.KernelIdeal.main_arg4)),
    fun c => headsProj (m ((c.tc : Thread Cert.KernelIdeal.nD Cert.KernelIdeal.τ).loc Cert.KernelIdeal.main_arg2)) (m ((c.tc : Thread Cert.KernelIdeal.nD Cert.KernelIdeal.τ).loc Cert.KernelIdeal.main_arg5)),
    Cert.KernelIdeal.Result.run m ρ, ?_⟩
  refine (θ_run Cert.ReferenceIdeal.defs _ _).mono (fun _ h c => ?_) (Cert.ReferenceIdeal.Value.run (F := Ideal) m' ρ')
  obtain ⟨h1, h3, h5, hargs⟩ := h c
  obtain ⟨a0, a1, a2, a3, a4, a5⟩ := hagree c
  refine ⟨?_, ?_, ?_, hargs⟩
  · rw [h1, Cert.ReferenceIdeal.Read.val_main_v1_eq, Cert.ReferenceIdeal.RefValue.proj_eq, a0, a3]
  · rw [h3, Cert.ReferenceIdeal.Read.val_main_v3_eq, Cert.ReferenceIdeal.RefValue.proj_eq3, a1, a4]
  · rw [h5, Cert.ReferenceIdeal.Read.val_main_v5_eq, Cert.ReferenceIdeal.RefValue.proj_eq5, a2, a5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
